-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S2048x2048 .f32) (main_arg3 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S512x2048 : Shape := ⟨2, ![512, 2048]⟩
abbrev S256x2048 : Shape := ⟨2, ![256, 2048]⟩
abbrev S512x256 : Shape := ⟨2, ![512, 256]⟩
abbrev S1x8192x2048 : Shape := ⟨3, ![1, 8192, 2048]⟩
abbrev S2x8192x2048 : Shape := ⟨3, ![2, 8192, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S1x8192x2048, .f32⟩
  | .hbm, ⟨7, _⟩ => ⟨S1x8192x2048, .f32⟩
  | .hbm, ⟨8, _⟩ => ⟨S2x8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S512x256_S512x256_0_0 : ∀ a, (![0, 0] : Fin 2 → Nat) a + S512x256.size a ≤ S512x256.size a
  h_S512x256 : 0 < S512x256.numel
  bcast_S8192x2048_S1x8192x2048_1_2 : S8192x2048.BroadcastsInDim S1x8192x2048 (![1, 2] : Fin 2 → Fin S1x8192x2048.rank)
  concatenates_S1x8192x2048_S1x8192x2048_S2x8192x2048_d0 : Shape.Concatenates [S1x8192x2048, S1x8192x2048] S2x8192x2048 0
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x2048.size a
  hwx0_4 : ∀ i : grid0.Coords, EltTy.bits .f32 = 32 ∨ (Rect.block (s := S8192x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x2048.size a
  hwx0_5 : ∀ i : grid0.Coords, EltTy.bits .f32 = 32 ∨ (Rect.block (s := S8192x2048) S512x256.size (cc0_transform_5 i) (hinb0_5 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S1x8192x2048 : Shape := ⟨3, ![1, 8192, 2048]⟩
abbrev S2x8192x2048 : Shape := ⟨3, ![2, 8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S1x8192x2048, .f32⟩
  | .hbm, ⟨11, _⟩ => ⟨S1x8192x2048, .f32⟩
  | .hbm, ⟨12, _⟩ => ⟨S2x8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8192x2048_S1x8192x2048_1_2 : S8192x2048.BroadcastsInDim S1x8192x2048 (![1, 2] : Fin 2 → Fin S1x8192x2048.rank)
  concatenates_S1x8192x2048_S1x8192x2048_S2x8192x2048_d0 : Shape.Concatenates [S1x8192x2048, S1x8192x2048] S2x8192x2048 0
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.TileProducts.lean ====
/-
  What the kernel body computes on one tile.

  At a grid point the body holds a [512, 2048] tile of each activation plane and a [256, 2048] tile of each weight
  plane. Each of its four matrix products contracts axis 1 of an activation tile with axis 1 of a weight tile into a
  zero accumulator, so at a tile index (p, q) it is the sum over the 2048 features k of act[p, k]·wgt[q, k]; the
  narrowing of the operands to bf16 before the product is the identity on the extended reals. The body stores the
  difference of the first two products and the sum of the other two.

  The lemmas name each operand's factors (`A k`, `C k`, …) so that a caller says what the tiles hold at those indices
  without this file knowing where the tiles came from.
-/
import proofs.«159122_j33792802685864_1_alg».proof.Proof.Gen.KernelIdeal.Skeleton
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe

/-! ## The product's operand indices, axis by axis -/

theorem lhs_axis0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_axis1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_axis0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_axis1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- The activation tile's entry that tile index `j = (p, q)` meets at feature `k`: `(p, k)`. -/
abbrev rowOf (j : S512x256.Idx) (k : Fin 2048) : S512x2048.Idx := fun a => match a with
  | ⟨0, _⟩ => ⟨(j 0).val, (j 0).isLt⟩
  | ⟨1, _⟩ => ⟨k.val, k.isLt⟩
/-- The weight tile's entry that tile index `j = (p, q)` meets at feature `k`: `(q, k)`. -/
abbrev colOf (j : S512x256.Idx) (k : Fin 2048) : S256x2048.Idx := fun a => match a with
  | ⟨0, _⟩ => ⟨(j 1).val, (j 1).isLt⟩
  | ⟨1, _⟩ => ⟨k.val, k.isLt⟩

/-! ## One product at a tile index -/

/-- A product into the zero accumulator, at a tile index, is the sum over the features. -/
theorem product_apply (a : FVec Ideal S512x2048 .bf16) (b : FVec Ideal S256x2048 .bf16) (j : S512x256.Idx) :
    matmul (F := Ideal) dot_S512x2048_S256x2048_S512x256_1_1_0_0_n_n none a b (constant S512x256 .f32 0x00000000#32) j
      = ∑ k : Fin 2048, a (rowOf j k) * b (colOf j k) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx j ((ValueIdx.contrEquiv1 dot_S512x2048_S256x2048_S512x256_1_1_0_0_n_n 2048 rfl rfl).symm k) = rowOf j k := funext fun a => Fin.ext (by
    match a with
    | ⟨0, _⟩ => exact lhs_axis0 _ _
    | ⟨1, _⟩ => exact (lhs_axis1 _ _).trans hk)
  have er : dot_S512x2048_S256x2048_S512x256_1_1_0_0_n_n.rhsIdx j ((ValueIdx.contrEquiv1 dot_S512x2048_S256x2048_S512x256_1_1_0_0_n_n 2048 rfl rfl).symm k) = colOf j k := funext fun a => Fin.ext (by
    match a with
    | ⟨0, _⟩ => exact rhs_axis0 _ _
    | ⟨1, _⟩ => exact (rhs_axis1 _ _).trans hk)
  rw [el, er]

/-- The same for tiles narrowed to bf16 first (the identity on the extended reals), with the factors named. -/
theorem product_of (x : Vec Ideal S512x2048 .f32) (w : Vec Ideal S256x2048 .f32) (j : S512x256.Idx)
    (A C : Fin 2048 → Ideal .f32) (hx : ∀ k, x (rowOf j k) = A k) (hw : ∀ k, w (colOf j k) = C k) :
    matmul (F := Ideal) dot_S512x2048_S256x2048_S512x256_1_1_0_0_n_n none (truncf .bf16 x bitsLt_bf16_f32) (truncf .bf16 w bitsLt_bf16_f32)
        (constant S512x256 .f32 0x00000000#32) j
      = ∑ k : Fin 2048, A k * C k := by
  refine (product_apply _ _ j).trans (Finset.sum_congr rfl fun k _ => ?_)
  show x (rowOf j k) * w (colOf j k) = A k * C k
  rw [hx k, hw k]

/-! ## The two stored values at a tile index -/

/-- The first store: act_re·wgt_reᵀ − act_im·wgt_imᵀ. -/
theorem stored_re_of (x0 x1 : Vec Ideal S512x2048 .f32) (x2 x3 : Vec Ideal S256x2048 .f32) (j : S512x256.Idx)
    (A B C D : Fin 2048 → Ideal .f32)
    (h0 : ∀ k, x0 (rowOf j k) = A k) (h1 : ∀ k, x1 (rowOf j k) = B k)
    (h2 : ∀ k, x2 (colOf j k) = C k) (h3 : ∀ k, x3 (colOf j k) = D k) :
    k0_pay5 (F := Ideal) x0 x1 x2 x3 j = FloatOps.subf (∑ k : Fin 2048, A k * C k) (∑ k : Fin 2048, B k * D k) := by
  show FloatOps.subf
      (matmul (F := Ideal) dot_S512x2048_S256x2048_S512x256_1_1_0_0_n_n none (k0_pay1 x0) (k0_pay3 x2) (constant S512x256 .f32 0x00000000#32) j)
      (matmul (F := Ideal) dot_S512x2048_S256x2048_S512x256_1_1_0_0_n_n none (k0_pay2 x1) (k0_pay4 x3) (constant S512x256 .f32 0x00000000#32) j) = _
  exact congrArg₂ _ (product_of x0 x2 j A C h0 h2) (product_of x1 x3 j B D h1 h3)

/-- The second store: act_re·wgt_imᵀ + act_im·wgt_reᵀ. -/
theorem stored_im_of (x0 x1 : Vec Ideal S512x2048 .f32) (x2 x3 : Vec Ideal S256x2048 .f32) (j : S512x256.Idx)
    (A B C D : Fin 2048 → Ideal .f32)
    (h0 : ∀ k, x0 (rowOf j k) = A k) (h1 : ∀ k, x1 (rowOf j k) = B k)
    (h2 : ∀ k, x2 (colOf j k) = C k) (h3 : ∀ k, x3 (colOf j k) = D k) :
    k0_pay6 (F := Ideal) x0 x1 x2 x3 j = FloatOps.addf (∑ k : Fin 2048, A k * D k) (∑ k : Fin 2048, B k * C k) := by
  show FloatOps.addf
      (matmul (F := Ideal) dot_S512x2048_S256x2048_S512x256_1_1_0_0_n_n none (k0_pay1 x0) (k0_pay4 x3) (constant S512x256 .f32 0x00000000#32) j)
      (matmul (F := Ideal) dot_S512x2048_S256x2048_S512x256_1_1_0_0_n_n none (k0_pay2 x1) (k0_pay3 x2) (constant S512x256 .f32 0x00000000#32) j) = _
  exact congrArg₂ _ (product_of x0 x3 j A D h0 h3) (product_of x1 x2 j B C h1 h2)

end Cert.KernelIdeal.Tile

end
-- ==== Proof.ComplexLinear.lean ====
/-
  The complex linear map y = x · Wᵀ over split real and imaginary planes, as one function of the four argument arrays.

  With x = x_re + i·x_im of shape [8192, 2048] and W = w_re + i·w_im of shape [2048, 2048] (no conjugation),
    y_re[b, o] = Σ_k x_re[b, k]·w_re[o, k] − Σ_k x_im[b, k]·w_im[o, k]
    y_im[b, o] = Σ_k x_re[b, k]·w_im[o, k] + Σ_k x_im[b, k]·w_re[o, k]
  where k runs over the 2048 input features: every product contracts axis 1 of the activations with axis 1 of the
  weights. The result is the two planes stacked on a new leading axis, [2, 8192, 2048].

  Both programs compute exactly these four sums and combine them the same way, so the extended reals are never asked
  for a law beyond reindexing a finite sum: nothing here needs the inputs to be finite.
-/
import Idealize.ShloMosaic.PureOps.Ideal
import Idealize.ShloMosaic.Lib.ValueIdx

noncomputable section

namespace Cert.ComplexLinear

open Idealize.ShloMosaic

/-- Activations, and each plane of the result: [batch, features]. -/
abbrev SX : Shape := ⟨2, ![8192, 2048]⟩
/-- Weights: [out features, in features]. -/
abbrev SW : Shape := ⟨2, ![2048, 2048]⟩
/-- One plane with a leading unit axis. -/
abbrev S1 : Shape := ⟨3, ![1, 8192, 2048]⟩
/-- The two planes stacked. -/
abbrev S2 : Shape := ⟨3, ![2, 8192, 2048]⟩

/-- The activation entry that output index `i = (b, o)` meets at feature `k`: `(b, k)`. -/
abbrev actAt (i : SX.Idx) (k : Fin 2048) : SX.Idx := fun a => match a with
  | ⟨0, _⟩ => ⟨(i 0).val, (i 0).isLt⟩
  | ⟨1, _⟩ => ⟨k.val, k.isLt⟩

/-- The weight entry that output index `i = (b, o)` meets at feature `k`: `(o, k)`. -/
abbrev wgtAt (i : SX.Idx) (k : Fin 2048) : SW.Idx := fun a => match a with
  | ⟨0, _⟩ => ⟨(i 1).val, (i 1).isLt⟩
  | ⟨1, _⟩ => ⟨k.val, k.isLt⟩

/-- One real product x · wᵀ at an output index: the sum over the features. -/
def dotAt (x : FVec Ideal SX .f32) (w : FVec Ideal SW .f32) (i : SX.Idx) : Ideal .f32 :=
  ∑ k : Fin 2048, x (actAt i k) * w (wgtAt i k)

/-- The real plane: x_re·w_reᵀ − x_im·w_imᵀ. -/
def outRe (xr xi : FVec Ideal SX .f32) (wr wi : FVec Ideal SW .f32) : FVec Ideal SX .f32 := fun i =>
  FloatOps.subf (dotAt xr wr i) (dotAt xi wi i)

/-- The imaginary plane: x_re·w_imᵀ + x_im·w_reᵀ. -/
def outIm (xr xi : FVec Ideal SX .f32) (wr wi : FVec Ideal SW .f32) : FVec Ideal SX .f32 := fun i =>
  FloatOps.addf (dotAt xr wi i) (dotAt xi wr i)

/-- The two planes stacked on a new leading axis: each gets a unit axis in front, and the two are joined along it.
    Both programs end with this same rearrangement, so it is never read at an index: it stays closed, and the two
    sides are compared plane by plane. The shape facts are arguments because each program states its own copy. -/
def stack (hb : SX.BroadcastsInDim S1 (![1, 2] : Fin 2 → Fin S1.rank)) (hc : Shape.Concatenates [S1, S1] S2 0)
    (a b : FVec Ideal SX .f32) : FVec Ideal S2 .f32 :=
  concatenate S2 0 [⟨S1, broadcastInDim S1 ![1, 2] hb a⟩, ⟨S1, broadcastInDim S1 ![1, 2] hb b⟩] hc

end Cert.ComplexLinear

end
-- ==== Proof.TilesToPlanes.lean ====
/-
  From the tiles the grid points write back to the two whole planes.

  The grid is 16 × 8. Point (g, h) holds rows 512·g … 512·g + 511 of both activation planes, rows 256·h … 256·h + 255
  of both weight planes (all 2048 features of each), and writes the [512, 256] tile at block (g, h) of each output
  plane. A tile entry (p, q) is therefore entry (512·g + p, 256·h + q) of the plane, and the activation and weight
  rows its sums run over are rows 512·g + p and 256·h + q of the whole arrays: what the point writes back is the
  tile of `outRe` (of `outIm`) of the argument arrays. The 128 tiles cover each plane, so after the run each output
  array is that function everywhere.
-/
import proofs.«159122_j33792802685864_1_alg».proof.Proof.Gen.KernelIdeal.Frame
import proofs.«159122_j33792802685864_1_alg».proof.Proof.TileProducts
import proofs.«159122_j33792802685864_1_alg».proof.Proof.ComplexLinear
import Idealize.ShloMosaic.Lib.Pipeline.Value

noncomputable section

namespace Cert.KernelIdeal.Planes

open Cert.KernelIdeal Cert.KernelIdeal.Gen Cert.ComplexLinear
open Idealize.ShloMosaic Idealize.ShloMosaic.TcCoe Idealize.SL.Sem
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The index maps over the grid: the activation windows follow the output's row block and the weight windows its
    column block, each taking every feature; both outputs sit at the same block; the blocks stay in range. -/
theorem block_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_5.index t (0 : Fin 2) = win0_4.index t (0 : Fin 2) ∧ win0_5.index t (1 : Fin 2) = win0_4.index t (1 : Fin 2)
    ∧ win0_4.index t (0 : Fin 2) ≤ 15 ∧ win0_4.index t (1 : Fin 2) ≤ 7 :=
  (by decide +kernel : ∀ t : Fin grid0.N, _)

/-- Every block of a plane is some point's. -/
theorem block_onto : ∀ (g : Fin 16) (h : Fin 8), ∃ t : Fin cfg0.N, win0_4.index t = ![g.val, h.val] :=
  (by decide +kernel : ∀ (g : Fin 16) (h : Fin 8), ∃ t : Fin grid0.N, win0_4.index t = ![g.val, h.val])

/-! ## Where a tile's rows sit in the whole arrays -/

/-- Row `p` of the activation tile at point `t` is the row of the whole array that the output entry reads. -/
theorem act_row0 (t : Fin cfg0.N) (j : S512x256.Idx) (k : Fin 2048) :
    ((cfg0.win 0).blk t).view.emb (Tile.rowOf j k) = actAt (((cfg0.win 4).blk t).view.emb j) k := by
  obtain ⟨e00, e01, e10, e11, e20, e21, e30, e31, e50, e51, b0, b1⟩ := block_facts t
  funext a; apply Fin.ext
  match a with
  | ⟨0, _⟩ => show win0_0.index t (0 : Fin 2) * 512 + 1 * (j 0).val = win0_4.index t (0 : Fin 2) * 512 + 1 * (j 0).val; omega
  | ⟨1, _⟩ => show win0_0.index t (1 : Fin 2) * 2048 + 1 * k.val = k.val; omega

theorem act_row1 (t : Fin cfg0.N) (j : S512x256.Idx) (k : Fin 2048) :
    ((cfg0.win 1).blk t).view.emb (Tile.rowOf j k) = actAt (((cfg0.win 4).blk t).view.emb j) k := by
  obtain ⟨e00, e01, e10, e11, e20, e21, e30, e31, e50, e51, b0, b1⟩ := block_facts t
  funext a; apply Fin.ext
  match a with
  | ⟨0, _⟩ => show win0_1.index t (0 : Fin 2) * 512 + 1 * (j 0).val = win0_4.index t (0 : Fin 2) * 512 + 1 * (j 0).val; omega
  | ⟨1, _⟩ => show win0_1.index t (1 : Fin 2) * 2048 + 1 * k.val = k.val; omega

/-- Row `q` of the weight tile at point `t` is the row of the whole array that the output entry reads. -/
theorem wgt_row2 (t : Fin cfg0.N) (j : S512x256.Idx) (k : Fin 2048) :
    ((cfg0.win 2).blk t).view.emb (Tile.colOf j k) = wgtAt (((cfg0.win 4).blk t).view.emb j) k := by
  obtain ⟨e00, e01, e10, e11, e20, e21, e30, e31, e50, e51, b0, b1⟩ := block_facts t
  funext a; apply Fin.ext
  match a with
  | ⟨0, _⟩ => show win0_2.index t (0 : Fin 2) * 256 + 1 * (j 1).val = win0_4.index t (1 : Fin 2) * 256 + 1 * (j 1).val; omega
  | ⟨1, _⟩ => show win0_2.index t (1 : Fin 2) * 2048 + 1 * k.val = k.val; omega

theorem wgt_row3 (t : Fin cfg0.N) (j : S512x256.Idx) (k : Fin 2048) :
    ((cfg0.win 3).blk t).view.emb (Tile.colOf j k) = wgtAt (((cfg0.win 4).blk t).view.emb j) k := by
  obtain ⟨e00, e01, e10, e11, e20, e21, e30, e31, e50, e51, b0, b1⟩ := block_facts t
  funext a; apply Fin.ext
  match a with
  | ⟨0, _⟩ => show win0_3.index t (0 : Fin 2) * 256 + 1 * (j 1).val = win0_4.index t (1 : Fin 2) * 256 + 1 * (j 1).val; omega
  | ⟨1, _⟩ => show win0_3.index t (1 : Fin 2) * 2048 + 1 * k.val = k.val; omega

/-- The two outputs' tiles at a point sit at the same place. -/
theorem same_tile (t : Fin cfg0.N) (j : S512x256.Idx) :
    ((cfg0.win 5).blk t).view.emb j = ((cfg0.win 4).blk t).view.emb j := by
  obtain ⟨e00, e01, e10, e11, e20, e21, e30, e31, e50, e51, b0, b1⟩ := block_facts t
  funext a; apply Fin.ext
  match a with
  | ⟨0, _⟩ => show win0_5.index t (0 : Fin 2) * 512 + 1 * (j 0).val = win0_4.index t (0 : Fin 2) * 512 + 1 * (j 0).val; omega
  | ⟨1, _⟩ => show win0_5.index t (1 : Fin 2) * 256 + 1 * (j 1).val = win0_4.index t (1 : Fin 2) * 256 + 1 * (j 1).val; omega

/-! ## What a point writes back -/

/-- Point `t` writes back the tile of the real plane. -/
theorem flushed_re (c : Dev nD) (t : Fin cfg0.N) :
    (dats m 0 c).flushed 4 t = ((cfg0.win 4).blk t).view.read (Elt Ideal)
      (outRe (V m c main_arg0) (V m c main_arg1) (V m c main_arg2) (V m c main_arg3)) := by
  show (cfg0.win 4).cut (grid0.coords t) ((dats m 0 c).after 4 t) = _
  rw [after0_4]
  unfold out0_4
  rw [View.canon_unit_zero origin]
  simp only [View.ld_unit_zero (S := S512x2048) origin, View.ld_unit_zero (S := S256x2048) origin]
  funext j
  show k0_pay5 (F := Ideal) (iblk m c 0 t) (iblk m c 1 t) (iblk m c 2 t) (iblk m c 3 t) j
      = outRe (V m c main_arg0) (V m c main_arg1) (V m c main_arg2) (V m c main_arg3) (((cfg0.win 4).blk t).view.emb j)
  refine Tile.stored_re_of (iblk m c 0 t) (iblk m c 1 t) (iblk m c 2 t) (iblk m c 3 t) j
    (fun k => V m c main_arg0 (actAt (((cfg0.win 4).blk t).view.emb j) k))
    (fun k => V m c main_arg1 (actAt (((cfg0.win 4).blk t).view.emb j) k))
    (fun k => V m c main_arg2 (wgtAt (((cfg0.win 4).blk t).view.emb j) k))
    (fun k => V m c main_arg3 (wgtAt (((cfg0.win 4).blk t).view.emb j) k)) ?_ ?_ ?_ ?_
  · intro k
    show V m c main_arg0 (((cfg0.win 0).blk t).view.emb (Tile.rowOf j k)) = _
    rw [act_row0]
  · intro k
    show V m c main_arg1 (((cfg0.win 1).blk t).view.emb (Tile.rowOf j k)) = _
    rw [act_row1]
  · intro k
    show V m c main_arg2 (((cfg0.win 2).blk t).view.emb (Tile.colOf j k)) = _
    rw [wgt_row2]
  · intro k
    show V m c main_arg3 (((cfg0.win 3).blk t).view.emb (Tile.colOf j k)) = _
    rw [wgt_row3]

/-- Point `t` writes back the tile of the imaginary plane. -/
theorem flushed_im (c : Dev nD) (t : Fin cfg0.N) :
    (dats m 0 c).flushed 5 t = ((cfg0.win 5).blk t).view.read (Elt Ideal)
      (outIm (V m c main_arg0) (V m c main_arg1) (V m c main_arg2) (V m c main_arg3)) := by
  show (cfg0.win 5).cut (grid0.coords t) ((dats m 0 c).after 5 t) = _
  rw [after0_5]
  unfold out0_5
  rw [View.canon_unit_zero origin]
  simp only [View.ld_unit_zero (S := S512x2048) origin, View.ld_unit_zero (S := S256x2048) origin]
  funext j
  show k0_pay6 (F := Ideal) (iblk m c 0 t) (iblk m c 1 t) (iblk m c 2 t) (iblk m c 3 t) j
      = outIm (V m c main_arg0) (V m c main_arg1) (V m c main_arg2) (V m c main_arg3) (((cfg0.win 5).blk t).view.emb j)
  rw [same_tile]
  refine Tile.stored_im_of (iblk m c 0 t) (iblk m c 1 t) (iblk m c 2 t) (iblk m c 3 t) j
    (fun k => V m c main_arg0 (actAt (((cfg0.win 4).blk t).view.emb j) k))
    (fun k => V m c main_arg1 (actAt (((cfg0.win 4).blk t).view.emb j) k))
    (fun k => V m c main_arg2 (wgtAt (((cfg0.win 4).blk t).view.emb j) k))
    (fun k => V m c main_arg3 (wgtAt (((cfg0.win 4).blk t).view.emb j) k)) ?_ ?_ ?_ ?_
  · intro k
    show V m c main_arg0 (((cfg0.win 0).blk t).view.emb (Tile.rowOf j k)) = _
    rw [act_row0]
  · intro k
    show V m c main_arg1 (((cfg0.win 1).blk t).view.emb (Tile.rowOf j k)) = _
    rw [act_row1]
  · intro k
    show V m c main_arg2 (((cfg0.win 2).blk t).view.emb (Tile.colOf j k)) = _
    rw [wgt_row2]
  · intro k
    show V m c main_arg3 (((cfg0.win 3).blk t).view.emb (Tile.colOf j k)) = _
    rw [wgt_row3]

/-! ## The tiles cover each plane -/

/-- An index of the real plane's array is in point `t`'s tile iff each coordinate is in the tile's range. -/
theorem mem_tile_re (t : Fin cfg0.N) (i : S8192x2048.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0_0).slice (win0_4.rect t)).set ↔ _
  rw [View.set_slice_whole, Rect.mem_set_unit]
  exact Iff.rfl

/-- The same for the imaginary plane's array. -/
theorem mem_tile_im (t : Fin cfg0.N) (i : S8192x2048.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v0_1).slice (win0_5.rect t)).set ↔ _
  rw [View.set_slice_whole, Rect.mem_set_unit]
  exact Iff.rfl

/-- Entry (r, s) of the real plane lies in the tile of the point at block (r / 512, s / 256). -/
theorem covered_re (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := block_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_tile_re]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- And of the imaginary plane, whose tiles sit at the same blocks. -/
theorem covered_im (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := block_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  obtain ⟨e00, e01, e10, e11, e20, e21, e30, e31, e50, e51, b0, b1⟩ := block_facts t
  refine ⟨t, flush0_5 t, ?_⟩
  rw [mem_tile_im]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-! ## The two output arrays after the run -/

/-- The first output array ends holding the real plane of the argument arrays. -/
theorem final_re (c : Dev nD) :
    (dats m 0 c).arrAt 4 cfg0.N = outRe (V m c main_arg0) (V m c main_arg1) (V m c main_arg2) (V m c main_arg3) :=
  (dats m 0 c).arrAt_eq_of_cover 4 _ (fun t _ => flushed_re m c t) covered_re

/-- The second output array ends holding the imaginary plane of the argument arrays. -/
theorem final_im (c : Dev nD) :
    (dats m 0 c).arrAt 5 cfg0.N = outIm (V m c main_arg0) (V m c main_arg1) (V m c main_arg2) (V m c main_arg3) :=
  (dats m 0 c).arrAt_eq_of_cover 5 _ (fun t _ => flushed_im m c t) covered_im

end Cert.KernelIdeal.Planes

end
-- ==== Proof.KernelRun.lean ====
/-
  The kernel's run, with its result named.

  After the region the program gives each output plane a leading unit axis and joins the two along it. Those lines read
  the two output arrays as the region left them — the real and the imaginary plane of the argument arrays — and write
  the result buffer, which is no array of the region: so the run ends with the result at the stack of the two planes,
  and with the argument arrays, which the region only reads, as they were.
-/
import proofs.«159122_j33792802685864_1_alg».proof.Proof.TilesToPlanes
import Idealize.ShloMosaic.Lib.StableHlo.Run

noncomputable section

namespace Cert.KernelIdeal.Planes

open Cert.KernelIdeal Cert.KernelIdeal.Gen Cert.ComplexLinear
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer is unscoped and is none of the region's six arrays. -/
theorem result_is_rest : main_v3 ∈ Pipeline.restRefs sig (cfgs 0).spec :=
  Pipeline.mem_restRefs_of main_v3 rfl (by intro w; fin_cases w <;> decide)

/-- What the lines after the region leave in the result buffer: the stack of the two planes. -/
theorem result_eq (c : Dev nD) :
    Pipeline.afterTail₀ cfgs (dats m) 0 (V0 m) [hostOps1] c main_v3
      = stack bcast_S8192x2048_S1x8192x2048_1_2 concatenates_S1x8192x2048_S1x8192x2048_S2x8192x2048_d0
          (outRe (V m c main_arg0) (V m c main_arg1) (V m c main_arg2) (V m c main_arg3))
          (outIm (V m c main_arg0) (V m c main_arg1) (V m c main_arg2) (V m c main_arg3)) := by
  unfold Pipeline.afterTail₀
  show StableHlo.after hostOps1 _ (Proc.devRef .tc main_v3) = _
  after_results
  have e4 : Pipeline.withArrays (cfgs 0).spec c (V0 m c) (fun w => (dats m 0 c).arrAt w (cfgs 0).N) (Proc.devRef .tc main_v0_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v0_1)
      = (dats m 0 c).arrAt 5 cfg0.N := Pipeline.withArrays_arr spec0 launch0.win.arr_inj c _ _ 5
  rw [e4, e5, final_re, final_im]
  rfl

/-- Every weakly fair execution of the kernel's program terminates with the result at the stack of the real and the
    imaginary plane of the argument arrays, and the argument arrays unchanged. -/
theorem run : θ_run defs (onTc (τ := τ) (main (F := Ideal))) ⟨m, fun _ => 0, ρ⟩ (fun r => ∀ c : Dev nD,
      r.2.mem ((c.tc : Thread nD τ).loc main_v3)
        = stack bcast_S8192x2048_S1x8192x2048_1_2 concatenates_S1x8192x2048_S1x8192x2048_S2x8192x2048_d0
            (outRe (m ((c.tc : Thread nD τ).loc main_arg0)) (m ((c.tc : Thread nD τ).loc main_arg1))
              (m ((c.tc : Thread nD τ).loc main_arg2)) (m ((c.tc : Thread nD τ).loc main_arg3)))
            (outIm (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).2 main_v3 result_is_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Planes

end
-- ==== Proof.RefPlanes.lean ====
/-
  The reference's result, plane by plane.

  The reference computes four host products, each contracting axis 1 of an activation array with axis 1 of a weight
  array. Read at an output index (b, o), such a product is the sum over the features k of x[b, k]·w[o, k]: the
  specification's `dotAt`. Its difference of the first two products is the real plane, its sum of the other two the
  imaginary plane, and what it returns is the two planes stacked.
-/
import proofs.«159122_j33792802685864_1_alg».proof.Proof.Gen.ReferenceIdeal.Read
import proofs.«159122_j33792802685864_1_alg».proof.Proof.ComplexLinear

noncomputable section

namespace Cert.ReferenceIdeal.Planes

open Cert.ReferenceIdeal Cert.ReferenceIdeal.Gen Cert.ReferenceIdeal.Read Cert.ComplexLinear
open Idealize.ShloMosaic Idealize.ShloMosaic.TcCoe

/-- x_re · w_reᵀ at an index. -/
theorem prod_rr (x : FVec Ideal SX .f32) (w : FVec Ideal SW .f32) (i : SX.Idx) :
    val_main_v0 (F := Ideal) x w i = dotAt x w i := by
  rw [val_main_v0_apply]; rfl

/-- x_im · w_imᵀ at an index. -/
theorem prod_ii (x : FVec Ideal SX .f32) (w : FVec Ideal SW .f32) (i : SX.Idx) :
    val_main_v1 (F := Ideal) x w i = dotAt x w i := by
  rw [val_main_v1_apply]; rfl

/-- x_re · w_imᵀ at an index. -/
theorem prod_ri (x : FVec Ideal SX .f32) (w : FVec Ideal SW .f32) (i : SX.Idx) :
    val_main_v3 (F := Ideal) x w i = dotAt x w i := by
  rw [val_main_v3_apply]; rfl

/-- x_im · w_reᵀ at an index. -/
theorem prod_ir (x : FVec Ideal SX .f32) (w : FVec Ideal SW .f32) (i : SX.Idx) :
    val_main_v4 (F := Ideal) x w i = dotAt x w i := by
  rw [val_main_v4_apply]; rfl

/-- The reference's difference of products is the real plane. -/
theorem real_plane (xr xi : FVec Ideal SX .f32) (wr wi : FVec Ideal SW .f32) :
    val_main_v2 (F := Ideal) xr xi wr wi = outRe xr xi wr wi := by
  funext i
  rw [val_main_v2_apply, prod_rr, prod_ii]
  rfl

/-- The reference's sum of products is the imaginary plane. -/
theorem imag_plane (xr xi : FVec Ideal SX .f32) (wr wi : FVec Ideal SW .f32) :
    val_main_v5 (F := Ideal) xr xi wr wi = outIm xr xi wr wi := by
  funext i
  rw [val_main_v5_apply, prod_ri, prod_ir]
  rfl

/-- What the reference returns: its two combinations of products, each given a leading unit axis and the two joined
    along it, which is the stack of the real and the imaginary plane. -/
theorem result_eq (xr xi : FVec Ideal SX .f32) (wr wi : FVec Ideal SW .f32) :
    concatenate S2x8192x2048 0
        [⟨S1x8192x2048, broadcastInDim S1x8192x2048 ![1, 2] bcast_S8192x2048_S1x8192x2048_1_2
            (subf (Host.dotGeneral dot_S8192x2048_S2048x2048_S8192x2048_1_1_0_0_n_n none xr wr)
              (Host.dotGeneral dot_S8192x2048_S2048x2048_S8192x2048_1_1_0_0_n_n none xi wi))⟩,
         ⟨S1x8192x2048, broadcastInDim S1x8192x2048 ![1, 2] bcast_S8192x2048_S1x8192x2048_1_2
            (addf (Host.dotGeneral dot_S8192x2048_S2048x2048_S8192x2048_1_1_0_0_n_n none xr wi)
              (Host.dotGeneral dot_S8192x2048_S2048x2048_S8192x2048_1_1_0_0_n_n none xi wr))⟩]
        concatenates_S1x8192x2048_S1x8192x2048_S2x8192x2048_d0
      = stack bcast_S8192x2048_S1x8192x2048_1_2 concatenates_S1x8192x2048_S1x8192x2048_S2x8192x2048_d0
          (outRe xr xi wr wi) (outIm xr xi wr wi) := by
  show stack bcast_S8192x2048_S1x8192x2048_1_2 concatenates_S1x8192x2048_S1x8192x2048_S2x8192x2048_d0
      (val_main_v2 (F := Ideal) xr xi wr wi) (val_main_v5 (F := Ideal) xr xi wr wi) = _
  rw [real_plane, imag_plane]

end Cert.ReferenceIdeal.Planes

end
-- ==== Proof.lean ====
/-
  A complex linear layer over split planes: y = x · Wᵀ with x = x_re + i·x_im of shape [8192, 2048] and
  W = w_re + i·w_im of shape [2048, 2048], no conjugation, returned as the stack [y_re, y_im] of shape [2, 8192, 2048]:
    y_re[b, o] = Σ_k x_re[b, k]·w_re[o, k] − Σ_k x_im[b, k]·w_im[o, k]
    y_im[b, o] = Σ_k x_re[b, k]·w_im[o, k] + Σ_k x_im[b, k]·w_re[o, k]        (k over the 2048 input features).

  The kernel tiles the output 16 × 8: at block (g, h) it takes 512 rows of each activation plane and 256 rows of each
  weight plane, all features at once, forms the four real products of the tiles, and writes their difference and their
  sum as the [512, 256] tiles of the two output planes; it narrows the operands to bf16 first, which is the identity
  on the extended reals. The reference forms the four products of the whole arrays and combines them the same way.
  Entry (p, q) of a tile at block (g, h) is entry (512·g + p, 256·h + q) of the plane, and its sums run over the
  same rows of the whole arrays as the reference's: so each output array ends at the plane the reference computes
  (ComplexLinear: the specification; TileProducts: one tile; TilesToPlanes: the tiles cover the planes; KernelRun and
  RefPlanes: the two runs). Both programs then stack the planes by the same rearrangement, which is compared closed.
  The two sides are the same sums combined the same way, so no law of the extended reals beyond reindexing a finite
  sum is used, and the finiteness of the inputs is never opened.

  The ideal pass rewrote nothing in the kernel, so `preserves` is trivial; the kernel's frames are the generated ones,
  and the reference's frame is its run with the result dropped.
-/
import proofs.«159122_j33792802685864_1_alg».proof.Defs
import proofs.«159122_j33792802685864_1_alg».proof.Proof.Gen.Kernel
import proofs.«159122_j33792802685864_1_alg».proof.Proof.Gen.Kernel.Skeleton
import proofs.«159122_j33792802685864_1_alg».proof.Proof.Gen.Kernel.Launch
import proofs.«159122_j33792802685864_1_alg».proof.Proof.Gen.Kernel.Points
import proofs.«159122_j33792802685864_1_alg».proof.Proof.Gen.Kernel.Frame
import proofs.«159122_j33792802685864_1_alg».proof.Proof.Gen.KernelIdeal
import proofs.«159122_j33792802685864_1_alg».proof.Proof.Gen.KernelIdeal.Skeleton
import proofs.«159122_j33792802685864_1_alg».proof.Proof.Gen.KernelIdeal.Launch
import proofs.«159122_j33792802685864_1_alg».proof.Proof.Gen.KernelIdeal.Points
import proofs.«159122_j33792802685864_1_alg».proof.Proof.Gen.KernelIdeal.Frame
import proofs.«159122_j33792802685864_1_alg».proof.Proof.Gen.ReferenceIdeal
import proofs.«159122_j33792802685864_1_alg».proof.Proof.Gen.Pre_finite_inputs
import proofs.«159122_j33792802685864_1_alg».proof.Proof.Gen.ReferenceIdeal.Run
import proofs.«159122_j33792802685864_1_alg».proof.Proof.Gen.ReferenceIdeal.Read
import proofs.«159122_j33792802685864_1_alg».proof.Proof.KernelRun
import proofs.«159122_j33792802685864_1_alg».proof.Proof.RefPlanes
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference launches no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories agreeing on the four argument arrays, the kernel ends with the result at the stack of the real and the
    imaginary plane of those arrays (`KernelIdeal.Planes.run`), and the reference ends at the same stack
    (`ReferenceIdeal.Planes.result_eq` over its run). -/
theorem algebraic : Cert.algebraic_KernelIdeal_ReferenceIdeal := by
  intro m ρ m' ρ' _ hagree
  refine ⟨_, Cert.KernelIdeal.Planes.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.Planes.result_eq _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
